-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_arg7 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x64 .f32) (main_arg6 : FVec F S64 .f32) (main_arg7 : FVec F S128x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S5000x128 : Shape := ⟨2, ![5000, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 60
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S1x64, .f32⟩
  | .hbm, ⟨59, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S1x64, .f32⟩
  | .local _ .vmem, ⟨15, _⟩ => ⟨S128x64, .f32⟩
  | .local _ .vmem, ⟨16, _⟩ => ⟨S5000x64, .f32⟩
  | .local _ .vmem, ⟨17, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.HostReads.lean ====
/-
  What the host operations around the two kernel regions hand to them, as functions of the launch arrays.

  Before the first region the host splits the edge array into its source row and its destination row, counts each
  node's incoming edges (a scatter-add of ones), clamps the count below by one and takes its reciprocal ONCE; the
  aggregated mean of a feature array is then the scatter-add, at the destinations, of the rows gathered at the
  (wrapped) sources, times that reciprocal broadcast along the features. The second region is handed the same mean
  of the first region's output. Every other array a region reads is a launch array, or a launch vector reshaped
  to a one-row matrix.
-/
import proofs.«131175_j72232759984911_1_alg».proof.Proof.Gen.KernelIdeal.Frame
import Idealize.ShloMosaic.Lib.StableHlo.Run

set_option maxRecDepth 16384

noncomputable section

namespace Cert.KernelIdeal.HostReads

open Cert.KernelIdeal Cert.KernelIdeal.Gen
open Idealize.ShloMosaic Idealize.ShloMosaic.TcCoe Idealize.SL.Sem Idealize.ShloMosaic.StableHlo

variable {F : FTy → Type} [FloatOps F]

/-- Row 0 of the edge array: each edge's source node. -/
def srcRow (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000

/-- Row 1 of the edge array: each edge's destination node. -/
def dstRow (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000

/-- Each node's incoming-edge count clamped below by one. -/
def clampedCount (dst : (⟨S1600000, .i32⟩ : BufTy).Contents (Elt F)) : (⟨S100000, .f32⟩ : BufTy).Contents (Elt F) :=
  maximumf (Host.scatterAdd scatter_S100000_S1600000x1_S1600000_n_0_0_1
      (broadcastInDim S100000 ![] bcast_S_S100000 (constant S_ .f32 0x00000000#32))
      (broadcastInDim S1600000x1 ![0] bcast_S1600000_S1600000x1_0 dst)
      (broadcastInDim S1600000 ![] bcast_S_S1600000 (constant S_ .f32 0x3F800000#32)))
    (broadcastInDim S100000 ![] bcast_S_S100000 (constant S_ .f32 0x3F800000#32))

/-- The reciprocal of the clamped count, taken once. -/
def invCount (dst : (⟨S1600000, .i32⟩ : BufTy).Contents (Elt F)) : (⟨S100000, .f32⟩ : BufTy).Contents (Elt F) :=
  Host.divf (broadcastInDim S100000 ![] bcast_S_S100000 (constant S_ .f32 0x3F800000#32)) (clampedCount dst)

/-- The neighbourhood sum: the rows of `feat` gathered at the sources (a negative source wrapped by the node count)
    and added up at the destinations. -/
def neighbourSum (feat : (⟨S100000x128, .f32⟩ : BufTy).Contents (Elt F))
    (src dst : (⟨S1600000, .i32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 feat
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The aggregated mean as the kernel's host side takes it: the neighbourhood sum times a per-node factor broadcast
    along the features. -/
def scaledSum (feat : (⟨S100000x128, .f32⟩ : BufTy).Contents (Elt F))
    (src dst : (⟨S1600000, .i32⟩ : BufTy).Contents (Elt F)) (inv : (⟨S100000, .f32⟩ : BufTy).Contents (Elt F)) :
    (⟨S100000x128, .f32⟩ : BufTy).Contents (Elt F) :=
  mulf (neighbourSum feat src dst)
    (broadcastInDim S100000x128 ![0, 1] bcast_S100000x1_S100000x128_0_1 (broadcastInDim S100000x1 ![0] bcast_S100000_S100000x1_0 inv))

variable (m : (ℓ : Loc nD τ sig) → Buf (Elt F) ℓ) (ρ : Dev nD → PrngReg)

/-! ## Region 0's entry: after the first stretch of host operations -/

theorem W1_src (c : Dev nD) : W1 m ρ c (Proc.devRef .tc main_v1) = srcRow (m ((c : Thread nD τ).loc main_arg1)) := by
  show StableHlo.after hostOps0 (W0 m ρ c) (Proc.devRef .tc main_v1) = _
  dsimp only [hostOps0]
  after_results_simp
  rfl

theorem W1_dst (c : Dev nD) : W1 m ρ c (Proc.devRef .tc main_v3) = dstRow (m ((c : Thread nD τ).loc main_arg1)) := by
  show StableHlo.after hostOps0 (W0 m ρ c) (Proc.devRef .tc main_v3) = _
  dsimp only [hostOps0]
  after_results_simp
  rfl

theorem W1_inv (c : Dev nD) : W1 m ρ c (Proc.devRef .tc main_v11) = invCount (dstRow (m ((c : Thread nD τ).loc main_arg1))) := by
  show StableHlo.after hostOps0 (W0 m ρ c) (Proc.devRef .tc main_v11) = _
  dsimp only [hostOps0]
  after_results_simp
  rfl

theorem W1_mean (c : Dev nD) : W1 m ρ c (Proc.devRef .tc main_v24)
    = scaledSum (m ((c : Thread nD τ).loc main_arg0)) (srcRow (m ((c : Thread nD τ).loc main_arg1)))
        (dstRow (m ((c : Thread nD τ).loc main_arg1))) (invCount (dstRow (m ((c : Thread nD τ).loc main_arg1)))) := by
  show StableHlo.after hostOps0 (W0 m ρ c) (Proc.devRef .tc main_v24) = _
  dsimp only [hostOps0]
  after_results_simp
  rfl

theorem W1_bias (c : Dev nD) : W1 m ρ c (Proc.devRef .tc main_v25)
    = shapeCast S1x128 (m ((c : Thread nD τ).loc main_arg3)) shapeCasts_S128_S1x128 := by
  show StableHlo.after hostOps0 (W0 m ρ c) (Proc.devRef .tc main_v25) = _
  dsimp only [hostOps0]
  after_results_simp
  rfl

theorem W1_arg (c : Dev nD) (b : Ref sig .tc) (hb : b = main_arg0 ∨ b = main_arg2 ∨ b = main_arg4 ∨ b = main_arg5 ∨ b = main_arg6 ∨ b = main_arg7) :
    W1 m ρ c (Proc.devRef .tc b) = m ((c : Thread nD τ).loc b) := by
  show StableHlo.after hostOps0 (W0 m ρ c) (Proc.devRef .tc b) = _
  rcases hb with rfl | rfl | rfl | rfl | rfl | rfl <;>
  · dsimp only [hostOps0]
    after_results_simp

/-! ## Region 0's exit and region 1's entry: after the second stretch of host operations -/

/-- Region 0 leaves its output array at what its write-backs fold to. -/
theorem W2_hidden (c : Dev nD) : W2 m ρ c (Proc.devRef .tc main_v26) = (dat0 (V1 m ρ) c).arrAt 5 cfg0.N :=
  W2_arr m ρ c 5

theorem W3_hidden (c : Dev nD) : W3 m ρ c (Proc.devRef .tc main_v26) = W2 m ρ c (Proc.devRef .tc main_v26) := by
  show StableHlo.after hostOps1 (W2 m ρ c) (Proc.devRef .tc main_v26) = _
  dsimp only [hostOps1]
  after_results_simp

/-- The second region's aggregated mean is the same function of the first region's output. -/
theorem W3_mean (c : Dev nD) : W3 m ρ c (Proc.devRef .tc main_v39)
    = scaledSum (W2 m ρ c (Proc.devRef .tc main_v26)) (srcRow (m ((c : Thread nD τ).loc main_arg1)))
        (dstRow (m ((c : Thread nD τ).loc main_arg1))) (invCount (dstRow (m ((c : Thread nD τ).loc main_arg1)))) := by
  have e : W3 m ρ c (Proc.devRef .tc main_v39)
      = scaledSum (W2 m ρ c (Proc.devRef .tc main_v26)) (W2 m ρ c (Proc.devRef .tc main_v1))
          (W2 m ρ c (Proc.devRef .tc main_v3)) (W2 m ρ c (Proc.devRef .tc main_v11)) := by
    show StableHlo.after hostOps1 (W2 m ρ c) (Proc.devRef .tc main_v39) = _
    dsimp only [hostOps1]
    after_results_simp
    rfl
  rw [e, W2_of_ne m ρ c main_v1 (by decide), W2_of_ne m ρ c main_v3 (by decide), W2_of_ne m ρ c main_v11 (by decide),
    W1_src, W1_dst, W1_inv]

theorem W3_bias (c : Dev nD) : W3 m ρ c (Proc.devRef .tc main_v40)
    = shapeCast S1x64 (m ((c : Thread nD τ).loc main_arg6)) shapeCasts_S64_S1x64 := by
  have e : W3 m ρ c (Proc.devRef .tc main_v40)
      = shapeCast S1x64 (W2 m ρ c (Proc.devRef .tc main_arg6)) shapeCasts_S64_S1x64 := by
    show StableHlo.after hostOps1 (W2 m ρ c) (Proc.devRef .tc main_v40) = _
    dsimp only [hostOps1]
    after_results_simp
    rfl
  rw [e, W2_of_ne m ρ c main_arg6 (by decide), W1_arg m ρ c main_arg6 (by simp)]

theorem W3_arg5 (c : Dev nD) : W3 m ρ c (Proc.devRef .tc main_arg5) = m ((c : Thread nD τ).loc main_arg5) := by
  have e : W3 m ρ c (Proc.devRef .tc main_arg5) = W2 m ρ c (Proc.devRef .tc main_arg5) := by
    show StableHlo.after hostOps1 (W2 m ρ c) (Proc.devRef .tc main_arg5) = _
    dsimp only [hostOps1]
    after_results_simp
  rw [e, W2_of_ne m ρ c main_arg5 (by decide), W1_arg m ρ c main_arg5 (by simp)]

theorem W3_arg7 (c : Dev nD) : W3 m ρ c (Proc.devRef .tc main_arg7) = m ((c : Thread nD τ).loc main_arg7) := by
  have e : W3 m ρ c (Proc.devRef .tc main_arg7) = W2 m ρ c (Proc.devRef .tc main_arg7) := by
    show StableHlo.after hostOps1 (W2 m ρ c) (Proc.devRef .tc main_arg7) = _
    dsimp only [hostOps1]
    after_results_simp
  rw [e, W2_of_ne m ρ c main_arg7 (by decide), W1_arg m ρ c main_arg7 (by simp)]

/-- Region 1 leaves the result array at what its write-backs fold to. -/
theorem W4_result (c : Dev nD) : W4 m ρ c (Proc.devRef .tc main_v41) = (dat1 (V3 m ρ) c).arrAt 5 cfg1.N :=
  W4_arr m ρ c 5

end Cert.KernelIdeal.HostReads

end
-- ==== Proof.Spec.lean ====
/-
  One GraphSAGE linear layer over the extended reals, and the law that joins the two ways of taking a mean.

  For a node n and an output feature j the layer is
      Σₖ mean(n,k)·Wl(k,j)  +  b(j)  +  Σₖ x(n,k)·Wr(k,j),
  the sum over the 128 input features. The mean aggregation divides a neighbourhood sum a by the clamped
  neighbour count c ≥ 1, either as the quotient a / c or as the product a · (1 / c) with the reciprocal taken once:
  on the extended reals the two agree for every a whenever c is not zero, since there a / c is a · c⁻¹ and
  1 / c is c⁻¹.
-/
import Idealize.ShloMosaic.PureOps.Ideal
import Idealize.ShloMosaic.Lib.ValueIdx

noncomputable section

open scoped BigOperators

namespace Cert.Sage

open Idealize.ShloMosaic Idealize.ShloMosaic.ValueIdx

/-- The layer at node `n`, output feature `j`: aggregated features through `Wl`, plus the bias, plus the node's
    own features through `Wr`. -/
def layerAt {D : Nat} (mean x : (⟨2, ![100000, 128]⟩ : Shape).Idx → EReal) (Wl : (⟨2, ![128, D]⟩ : Shape).Idx → EReal)
    (b : Fin D → EReal) (Wr : (⟨2, ![128, D]⟩ : Shape).Idx → EReal) (n : Fin 100000) (j : Fin D) : EReal :=
  (∑ k : Fin 128, mean (ix2 n k) * Wl (ix2 k j)) + b j + ∑ k : Fin 128, x (ix2 n k) * Wr (ix2 k j)

/-- The layer depends on its aggregated features and its node features only through their values. -/
theorem layerAt_congr {D : Nat} {mean mean' x x' : (⟨2, ![100000, 128]⟩ : Shape).Idx → EReal}
    (hm : mean = mean') (hx : x = x') (Wl : (⟨2, ![128, D]⟩ : Shape).Idx → EReal) (b : Fin D → EReal)
    (Wr : (⟨2, ![128, D]⟩ : Shape).Idx → EReal) (n : Fin 100000) (j : Fin D) :
    layerAt mean x Wl b Wr n j = layerAt mean' x' Wl b Wr n j := by subst hm hx; rfl

/-- Multiplying by the reciprocal of a nonzero count is dividing by the count, for every extended real numerator. -/
theorem mul_recip (a c : EReal) (hc : c ≠ 0) : a * Ideal.div 1 c = Ideal.div a c := by
  unfold Ideal.div
  rw [if_neg hc, if_neg hc, one_mul]

/-- A count clamped below by one is not zero. -/
theorem max_one_ne_zero (n : EReal) : max n 1 ≠ 0 := by
  intro h
  have h1 : (1 : EReal) ≤ max n 1 := le_max_right _ _
  rw [h] at h1
  exact absurd h1 (by norm_num)

end Cert.Sage

end
-- ==== Proof.KernelFn.lean ====
/-
  The kernel program's result as a function of its eight launch arrays.

  The hidden features are the first layer clamped below at zero, over the mean of the node features; the result is
  the second layer over the hidden features and their mean. Either mean is the neighbourhood sum times the reciprocal
  of the clamped neighbour count; either bias enters as the one row of a one-row matrix.
-/
import proofs.«131175_j72232759984911_1_alg».proof.Proof.HostReads
import proofs.«131175_j72232759984911_1_alg».proof.Proof.Spec

noncomputable section

namespace Cert.KernelIdeal.KernelFn

open Cert.KernelIdeal Cert.KernelIdeal.Gen Cert.KernelIdeal.HostReads
open Idealize.ShloMosaic Idealize.ShloMosaic.ValueIdx

/-- The aggregated mean of a feature array along the edges. -/
def meanOf (feat : (⟨S100000x128, .f32⟩ : BufTy).Contents (Elt Ideal)) (ei : (⟨S2x1600000, .i32⟩ : BufTy).Contents (Elt Ideal)) :
    (⟨S100000x128, .f32⟩ : BufTy).Contents (Elt Ideal) :=
  scaledSum feat (srcRow ei) (dstRow ei) (invCount (dstRow ei))

/-- The hidden features: the first layer, clamped below at zero. -/
def hiddenOf (a0 : (⟨S100000x128, .f32⟩ : BufTy).Contents (Elt Ideal)) (a1 : (⟨S2x1600000, .i32⟩ : BufTy).Contents (Elt Ideal))
    (a2 : (⟨S128x128, .f32⟩ : BufTy).Contents (Elt Ideal)) (a3 : (⟨S128, .f32⟩ : BufTy).Contents (Elt Ideal))
    (a4 : (⟨S128x128, .f32⟩ : BufTy).Contents (Elt Ideal)) : (⟨S100000x128, .f32⟩ : BufTy).Contents (Elt Ideal) :=
  fun i => (max (Cert.Sage.layerAt (meanOf a0 a1) a0 a2
    (fun j => (shapeCast S1x128 a3 shapeCasts_S128_S1x128 : S1x128.Idx → EReal) (ix2 0 j)) a4 (i 0) (i 1)) 0 : EReal)

/-- The result: the second layer over the hidden features and their mean. -/
def outOf (a0 : (⟨S100000x128, .f32⟩ : BufTy).Contents (Elt Ideal)) (a1 : (⟨S2x1600000, .i32⟩ : BufTy).Contents (Elt Ideal))
    (a2 : (⟨S128x128, .f32⟩ : BufTy).Contents (Elt Ideal)) (a3 : (⟨S128, .f32⟩ : BufTy).Contents (Elt Ideal))
    (a4 : (⟨S128x128, .f32⟩ : BufTy).Contents (Elt Ideal)) (a5 : (⟨S128x64, .f32⟩ : BufTy).Contents (Elt Ideal))
    (a6 : (⟨S64, .f32⟩ : BufTy).Contents (Elt Ideal)) (a7 : (⟨S128x64, .f32⟩ : BufTy).Contents (Elt Ideal)) :
    (⟨S100000x64, .f32⟩ : BufTy).Contents (Elt Ideal) :=
  fun i => (Cert.Sage.layerAt (meanOf (hiddenOf a0 a1 a2 a3 a4) a1) (hiddenOf a0 a1 a2 a3 a4) a5
    (fun j => (shapeCast S1x64 a6 shapeCasts_S64_S1x64 : S1x64.Idx → EReal) (ix2 0 j)) a7 (i 0) (i 1) : EReal)

end Cert.KernelIdeal.KernelFn

end
-- ==== Proof.LibMatmul2.lean ====
/-
  A rank-2 by rank-2 `tpu.matmul` into the zero accumulator, read at an index at the ideal values.

  For a dimension record that contracts the left operand's second axis against the right operand's first, with no batch
  axis, the product of an [M, K] and a [K, N] matrix read at (p, h) is the plain sum  Σₖ a (p, k) · b (k, h)  over the
  extended reals. The record's four coordinate facts (which operand coordinate is the output's row, the output's column,
  the contraction index) are hypotheses: each is decided on a literal record by whoever instantiates the lemma.
-/
import Idealize.ShloMosaic.PureOps.Ideal.Laws
import Idealize.ShloMosaic.Lib.ValueIdx

noncomputable section

namespace Cert.LibMatmul2

open Idealize.ShloMosaic Idealize.ShloMosaic.ValueIdx

/-- The matrix product into a zero accumulator at (p, h) is Σₖ a (p, k) · b (k, h). -/
theorem matmul_zero_apply {M K N : Nat} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (a : FVec Ideal ⟨2, ![M, K]⟩ φ₁) (b : FVec Ideal ⟨2, ![K, N]⟩ φ₂) (p : Fin M) (h : Fin N) :
    matmul D none a b (constant ⟨2, ![M, N]⟩ .f32 0x00000000#32) (ix2 p h) = ∑ k : Fin K, a (ix2 p k) * b (ix2 k h) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p h) ((contrEquiv1 D K hr hs).symm k) = ix2 p k := funext fun x => Fin.ext (by
    match x with
    | ⟨0, _⟩ => exact hl0 _ _
    | ⟨1, _⟩ => exact (hl1 _ _).trans hk)
  have er : D.rhsIdx (ix2 p h) ((contrEquiv1 D K hr hs).symm k) = ix2 k h := funext fun x => Fin.ext (by
    match x with
    | ⟨0, _⟩ => exact (hr0 _ _).trans hk
    | ⟨1, _⟩ => exact hr1 _ _)
  rw [el, er]

end Cert.LibMatmul2

end
-- ==== Proof.LibDotAxes.lean ====
/-
  The four coordinate facts of a rank-2 by rank-2 dimension record that contracts the left operand's columns with the
  right operand's rows and has no batch axis, from the record's six axis lists.

  For such a record the left operand is read at (output row, contraction index) and the right operand at
  (contraction index, output column); the contraction shape has one axis, of the shared extent. A literal record
  gives the six list equations by computation, and these lemmas turn them into the hypotheses a matrix product read
  at an index asks for.
-/
import Idealize.ShloMosaic.PureOps.Dims

namespace Cert.LibDotAxes

open Idealize.ShloMosaic

variable {M K N : Nat} (D : DotDims ⟨2, ![M, K]⟩ ⟨2, ![K, N]⟩ ⟨2, ![M, N]⟩)

/-- One contracting axis: the contraction shape has rank one. -/
theorem contr_rank (hlc : D.lhsContracting = [1]) : D.contr.rank = 1 := by
  rw [D.rank_contr, hlc]; rfl

/-- Its one axis has the left operand's column count. -/
theorem contr_size (hlc : D.lhsContracting = [1]) (h : 0 < D.contr.rank) : D.contr.size ⟨0, h⟩ = K := by
  have h0 : 0 < D.lhsContracting.length := by rw [hlc]; exact Nat.one_pos
  rw [D.size_contr 0 h0]
  have e : D.lhsContracting[0]'h0 = (1 : Fin 2) := by simp [hlc]
  rw [e]; rfl

private theorem val_congr {n : Nat} {sz : Fin n → Nat} (i : (a : Fin n) → Fin (sz a)) :
    ∀ (p q : Nat) (hp : p < n) (hq : q < n), p = q → (i ⟨p, hp⟩).val = (i ⟨q, hq⟩).val :=
  fun p q hp hq h => by subst h; rfl

/-- The left operand's row coordinate is the output's row. -/
theorem lhs_row (hlb : D.lhsBatch = []) (hln : D.lhsNonContracting = [0])
    (i : (⟨2, ![M, N]⟩ : Shape).Idx) (q : D.contr.Idx) : (D.lhsIdx i q 0).val = (i 0).val := by
  have h1 : (0 : Fin 2) ∉ D.lhsBatch := by rw [hlb]; exact List.not_mem_nil
  have h2 : (0 : Fin 2) ∈ D.lhsNonContracting := by rw [hln]; exact List.mem_singleton.mpr rfl
  unfold DotDims.lhsIdx
  rw [dif_neg h1, dif_pos h2]
  simp only [Fin.val_cast]
  exact val_congr i _ _ _ _ (by simp [hlb, hln])

/-- The left operand's column coordinate is the contraction index. -/
theorem lhs_col (hlc : D.lhsContracting = [1]) (i : (⟨2, ![M, N]⟩ : Shape).Idx) (q : D.contr.Idx)
    (h : 0 < D.contr.rank) : (D.lhsIdx i q 1).val = (q ⟨0, h⟩).val :=
  D.lhsIdx_val_of_single hlc i q

/-- The right operand's row coordinate is the contraction index. -/
theorem rhs_row (hrc : D.rhsContracting = [0]) (i : (⟨2, ![M, N]⟩ : Shape).Idx) (q : D.contr.Idx)
    (h : 0 < D.contr.rank) : (D.rhsIdx i q 0).val = (q ⟨0, h⟩).val :=
  D.rhsIdx_val_of_single hrc i q

/-- The right operand's column coordinate is the output's column. -/
theorem rhs_col (hlb : D.lhsBatch = []) (hln : D.lhsNonContracting = [0]) (hrb : D.rhsBatch = [])
    (hrn : D.rhsNonContracting = [1]) (i : (⟨2, ![M, N]⟩ : Shape).Idx) (q : D.contr.Idx) :
    (D.rhsIdx i q 1).val = (i 1).val := by
  have h1 : (1 : Fin 2) ∉ D.rhsBatch := by rw [hrb]; exact List.not_mem_nil
  have h2 : (1 : Fin 2) ∈ D.rhsNonContracting := by rw [hrn]; exact List.mem_singleton.mpr rfl
  unfold DotDims.rhsIdx
  rw [dif_neg h1, dif_pos h2]
  simp only [Fin.val_cast]
  exact val_congr i _ _ _ _ (by simp [hlb, hln, hrn])

end Cert.LibDotAxes
-- ==== Proof.Blocks0.lean ====
/-
  The first layer's region, read as one array.

  The region runs the linear-layer body over twenty row blocks of 5000 nodes. At each block the body takes the block of
  aggregated features and the block of node features (5000 × 128 each), the two 128 × 128 weight matrices and the
  1 × 128 bias row, and stores, at row p and feature q,
      max ( Σₖ mean(p,k)·Wl(k,q) + b(q) + Σₖ x(p,k)·Wr(k,q) , 0 ).
  Block t of either row-blocked array is rows 5000 t … 5000 t + 4999 of the array; the weights' and the bias's single
  block is the whole array. So what point t writes back is block t of ONE function of the five arrays, the layer clamped
  below at zero; the twenty output blocks tile the 100000 × 128 result, hence the result is that function everywhere.
-/
import proofs.«131175_j72232759984911_1_alg».proof.Proof.Gen.KernelIdeal.Frame
import proofs.«131175_j72232759984911_1_alg».proof.Proof.Spec
import proofs.«131175_j72232759984911_1_alg».proof.Proof.LibMatmul2
import proofs.«131175_j72232759984911_1_alg».proof.Proof.LibDotAxes
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Blocks

open Cert.KernelIdeal Cert.KernelIdeal.Gen Idealize.ShloMosaic Idealize.ShloMosaic.ValueIdx Idealize.ShloMosaic.TcCoe Idealize.SL.Sem
open Idealize.ShloMosaic.Pipeline (Dat)

namespace Out128

/-! ## The body's result at an index -/

/-- The matrix product of a row block with a square weight matrix into the zero accumulator, read at (p, q), is the
    sum over the 128 shared features of the products: the record contracts the block's columns against the weight's
    rows and has no batch axis. -/
theorem dot_apply {φ₁ φ₂ : FTy} (a : FVec Ideal S5000x128 φ₁) (b : FVec Ideal S128x128 φ₂) (p : Fin 5000) (q : Fin 128) :
    matmul dot_S5000x128_S128x128_S5000x128_1_0_0_1_n_n none a b (constant S5000x128 .f32 0x00000000#32) (ix2 p q)
      = ∑ k : Fin 128, a (ix2 p k) * b (ix2 k q) :=
  Cert.LibMatmul2.matmul_zero_apply dot_S5000x128_S128x128_S5000x128_1_0_0_1_n_n
    (Cert.LibDotAxes.contr_rank _ rfl) (Cert.LibDotAxes.contr_size _ rfl _)
    (Cert.LibDotAxes.lhs_row _ rfl rfl) (fun i k => Cert.LibDotAxes.lhs_col _ rfl i k _)
    (fun i k => Cert.LibDotAxes.rhs_row _ rfl i k _) (Cert.LibDotAxes.rhs_col _ rfl rfl rfl rfl) a b p q

/-- What the body stores at row p, feature q of its block: the aggregated row through the left weights, plus the bias
    at q, plus the node's own row through the right weights, clamped below at zero. At the ideal values the change of
    float format is the identity, the cast to the same shape is the identity, the one bias row is read at every row,
    and the zero word is the number zero. -/
theorem pay0_apply (x0 x1 : Vec Ideal S5000x128 .f32) (x2 x4 : Vec Ideal S128x128 .f32) (x3 : Vec Ideal S1x128 .f32)
    (p : Fin 5000) (q : Fin 128) :
    Gen.k0_pay1 (F := Ideal) x0 x1 x2 x4 x3 (ix2 p q)
      = max ((∑ k : Fin 128, x0 (ix2 p k) * x2 (ix2 k q)) + x3 (ix2 0 q) + ∑ k : Fin 128, x1 (ix2 p k) * x4 (ix2 k q)) 0 := by
  unfold Gen.k0_pay1
  rw [maximumf_apply, addf_apply, addf_apply, dot_apply, dot_apply]
  rw [shapeCast_self, shapeCast_self, broadcastTo_1b_ab_apply]
  simp only [truncf_apply, broadcast_apply]
  exact congrArg (max _) Ideal.ofBits_zero_f32

/-! ## From the blocks to the array -/

variable (V : (c : Dev nD) → (b : Ref sig .tc) → Buf (Elt Ideal) ((c : Thread nD τ).loc b))

/-- The layer followed by the clamp at zero, as one function of the five arrays the region finds. -/
abbrev reluLayer (c : Dev nD) : S100000x128.Idx → EReal := fun i =>
  max (Cert.Sage.layerAt (V c main_v24 : S100000x128.Idx → EReal) (V c main_arg0 : S100000x128.Idx → EReal)
    (V c main_arg2 : S128x128.Idx → EReal) (fun j => (V c main_v25 : S1x128.Idx → EReal) (ix2 0 j))
    (V c main_arg4 : S128x128.Idx → EReal) (i 0) (i 1)) 0

theorem zero_offsets : (![0, 0] : Fin 2 → Nat) = fun _ => 0 :=
  funext fun a => match a with | ⟨0, _⟩ => rfl | ⟨1, _⟩ => rfl

/-- The index maps over the grid: the two row-blocked inputs and the output sit at block (t, 0); the two weight
    matrices and the bias row at block (0, 0). -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Block t of the aggregated features is rows 5000 t … 5000 t + 4999 of the array. -/
theorem mean_block (c : Dev nD) (t : Fin cfg0.N) (p : Fin 5000) (k : Fin 128) (n : Fin 100000)
    (hn : n.val = t.val * 5000 + p.val) :
    (Gen.iblk0 (F := Ideal) V c 0 t : Vec Ideal S5000x128 .f32) (ix2 p k) = (V c main_v24 : S100000x128.Idx → EReal) (ix2 n k) := by
  obtain ⟨e0, e1, -⟩ := index_maps t
  show (V c main_v24 : S100000x128.Idx → EReal) (((cfg0.win 0).blk t).view.emb (ix2 p k)) = _
  refine congrArg _ (funext fun a => Fin.ext ?_)
  match a with
  | ⟨0, _⟩ => show win0_0.index t (0 : Fin 2) * 5000 + 1 * p.val = n.val; omega
  | ⟨1, _⟩ => show win0_0.index t (1 : Fin 2) * 128 + 1 * k.val = k.val; omega

/-- Block t of the node features is the same rows of their array. -/
theorem node_block (c : Dev nD) (t : Fin cfg0.N) (p : Fin 5000) (k : Fin 128) (n : Fin 100000)
    (hn : n.val = t.val * 5000 + p.val) :
    (Gen.iblk0 (F := Ideal) V c 1 t : Vec Ideal S5000x128 .f32) (ix2 p k) = (V c main_arg0 : S100000x128.Idx → EReal) (ix2 n k) := by
  obtain ⟨-, -, e0, e1, -⟩ := index_maps t
  show (V c main_arg0 : S100000x128.Idx → EReal) (((cfg0.win 1).blk t).view.emb (ix2 p k)) = _
  refine congrArg _ (funext fun a => Fin.ext ?_)
  match a with
  | ⟨0, _⟩ => show win0_1.index t (0 : Fin 2) * 5000 + 1 * p.val = n.val; omega
  | ⟨1, _⟩ => show win0_1.index t (1 : Fin 2) * 128 + 1 * k.val = k.val; omega

/-- The left weights' one block is the whole matrix, at every point. -/
theorem left_block (c : Dev nD) (t : Fin cfg0.N) (k q : Fin 128) :
    (Gen.iblk0 (F := Ideal) V c 2 t : Vec Ideal S128x128 .f32) (ix2 k q) = (V c main_arg2 : S128x128.Idx → EReal) (ix2 k q) := by
  obtain ⟨-, -, -, -, e0, e1, -⟩ := index_maps t
  show (V c main_arg2 : S128x128.Idx → EReal) (((cfg0.win 2).blk t).view.emb (ix2 k q)) = _
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- The bias row's one block is the whole row, at every point. -/
theorem bias_block (c : Dev nD) (t : Fin cfg0.N) (q : Fin 128) :
    (Gen.iblk0 (F := Ideal) V c 3 t : Vec Ideal S1x128 .f32) (ix2 0 q) = (V c main_v25 : S1x128.Idx → EReal) (ix2 0 q) := by
  obtain ⟨-, -, -, -, -, -, e0, e1, -⟩ := index_maps t
  show (V c main_v25 : S1x128.Idx → EReal) (((cfg0.win 3).blk t).view.emb (ix2 0 q)) = _
  refine congrArg _ (funext fun a => Fin.ext ?_)
  match a with
  | ⟨0, _⟩ => show win0_3.index t (0 : Fin 2) * 1 + 1 * 0 = 0; omega
  | ⟨1, _⟩ => show win0_3.index t (1 : Fin 2) * 128 + 1 * q.val = q.val; omega

/-- The right weights' one block is the whole matrix, at every point. -/
theorem right_block (c : Dev nD) (t : Fin cfg0.N) (k q : Fin 128) :
    (Gen.iblk0 (F := Ideal) V c 4 t : Vec Ideal S128x128 .f32) (ix2 k q) = (V c main_arg4 : S128x128.Idx → EReal) (ix2 k q) := by
  obtain ⟨-, -, -, -, -, -, -, -, e0, e1, -⟩ := index_maps t
  show (V c main_arg4 : S128x128.Idx → EReal) (((cfg0.win 4).blk t).view.emb (ix2 k q)) = _
  refine congrArg _ (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

/-- What point t writes back is block t of the clamped layer: at row p, feature q of the block the body's result is
    the layer at node 5000 t + p, feature q, every input block read at the rows and columns the output's block names. -/
theorem flushed_eq (c : Dev nD) (t : Fin cfg0.N) :
    (Gen.dat0 (F := Ideal) V c).flushed 5 t = ((cfg0.win 5).blk t).view.read (Elt Ideal) (reluLayer V c) := by
  show (cfg0.win 5).cut (grid0.coords t) ((Gen.dat0 (F := Ideal) V c).after 5 t) = _
  rw [Gen.after0_5]
  unfold Gen.out0_5
  rw [View.canon_unit_zero zero_offsets]
  simp only [View.ld_unit_zero (S := S5000x128) zero_offsets, View.ld_unit_zero (S := S128x128) zero_offsets,
    View.ld_unit_zero (S := S1x128) zero_offsets]
  funext j
  obtain ⟨p, q, rfl⟩ : ∃ (p : Fin 5000) (q : Fin 128), j = ix2 p q := ⟨j 0, j 1, eq_ix2 j⟩
  obtain ⟨-, -, -, -, -, -, -, -, -, -, e0, e1⟩ := index_maps t
  have hn : ((((cfg0.win 5).blk t).view.emb (ix2 p q)) 0).val = t.val * 5000 + p.val := by
    show win0_5.index t (0 : Fin 2) * 5000 + 1 * p.val = _; omega
  have hq : (((cfg0.win 5).blk t).view.emb (ix2 p q)) 1 = q := Fin.ext (by
    show win0_5.index t (1 : Fin 2) * 128 + 1 * q.val = _; omega)
  show Gen.k0_pay1 (F := Ideal) (Gen.iblk0 V c 0 t) (Gen.iblk0 V c 1 t) (Gen.iblk0 V c 2 t) (Gen.iblk0 V c 4 t) (Gen.iblk0 V c 3 t) (ix2 p q)
    = max (Cert.Sage.layerAt (V c main_v24 : S100000x128.Idx → EReal) (V c main_arg0 : S100000x128.Idx → EReal)
      (V c main_arg2 : S128x128.Idx → EReal) (fun j => (V c main_v25 : S1x128.Idx → EReal) (ix2 0 j))
      (V c main_arg4 : S128x128.Idx → EReal) ((((cfg0.win 5).blk t).view.emb (ix2 p q)) 0) ((((cfg0.win 5).blk t).view.emb (ix2 p q)) 1)) 0
  rw [pay0_apply, hq]
  unfold Cert.Sage.layerAt
  rw [bias_block V c t q]
  refine congrArg (max · 0) (congrArg₂ (· + ·) (congrArg (· + _) ?_) ?_)
  · exact Finset.sum_congr rfl fun k _ => congrArg₂ (· * ·) (mean_block V c t p k _ hn) (left_block V c t k q)
  · exact Finset.sum_congr rfl fun k _ => congrArg₂ (· * ·) (node_block V c t p k _ hn) (right_block V c t k q)

/-- An index of the output array lies in point t's block exactly when each coordinate lies in the block's range. -/
theorem mem_block (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v26).slice (win0_5.rect t)).set ↔ _
  rw [View.set_slice_whole, Rect.mem_set_unit]
  exact Iff.rfl

/-- The twenty row blocks tile the array: node n lies in the block of point n / 5000, which writes back. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := Gen.N_0
  obtain ⟨t, ht⟩ : ∃ t : Fin cfg0.N, t.val = (i 0).val / 5000 := ⟨⟨(i 0).val / 5000, by rw [hN]; omega⟩, rfl⟩
  obtain ⟨-, -, -, -, -, -, -, -, -, -, e0, e1⟩ := index_maps t
  refine ⟨t, Gen.flush0_5 t, ?_⟩
  rw [mem_block]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

end Out128

/-- After the region the output array holds the clamped layer at every node and feature, whatever the region found. -/
theorem final0 (V : (c : Dev nD) → (b : Ref sig .tc) → Buf (Elt Ideal) ((c : Thread nD τ).loc b)) (c : Dev nD) :
    (Gen.dat0 (F := Ideal) V c).arrAt 5 cfg0.N
      = fun i => max (Cert.Sage.layerAt (V c main_v24) (V c main_arg0) (V c main_arg2) (fun j => V c main_v25 (ix2 0 j))
          (V c main_arg4) (i 0) (i 1)) 0 :=
  (Gen.dat0 (F := Ideal) V c).arrAt_eq_of_cover 5 (Out128.reluLayer V c) (fun t _ => Out128.flushed_eq V c t) Out128.cover

end Cert.KernelIdeal.Blocks

end
-- ==== Proof.Blocks1.lean ====
/-
  The second layer's region, read as one array.

  The region runs the same linear-layer body at output width 64 and without a clamp, over twenty row blocks of 5000
  nodes. At each block the body takes the block of aggregated features and the block of the first layer's output
  (5000 × 128 each), the two 128 × 64 weight matrices and the 1 × 64 bias row, and stores, at row p and feature q,
      Σₖ mean(p,k)·Wl(k,q) + b(q) + Σₖ h(p,k)·Wr(k,q).
  Block t of either row-blocked array is rows 5000 t … 5000 t + 4999 of the array; the weights' and the bias's single
  block is the whole array. So what point t writes back is block t of ONE function of the five arrays, the layer itself;
  the twenty output blocks tile the 100000 × 64 result, hence the result is that function everywhere.
-/
import proofs.«131175_j72232759984911_1_alg».proof.Proof.Gen.KernelIdeal.Frame
import proofs.«131175_j72232759984911_1_alg».proof.Proof.Spec
import proofs.«131175_j72232759984911_1_alg».proof.Proof.LibMatmul2
import proofs.«131175_j72232759984911_1_alg».proof.Proof.LibDotAxes
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Blocks

open Cert.KernelIdeal Cert.KernelIdeal.Gen Idealize.ShloMosaic Idealize.ShloMosaic.ValueIdx Idealize.ShloMosaic.TcCoe Idealize.SL.Sem
open Idealize.ShloMosaic.Pipeline (Dat)

namespace Out64

/-! ## The body's result at an index -/

/-- The matrix product of a row block with a 128 × 64 weight matrix into the zero accumulator, read at (p, q), is the
    sum over the 128 shared features of the products: the record contracts the block's columns against the weight's
    rows and has no batch axis. -/
theorem dot_apply {φ₁ φ₂ : FTy} (a : FVec Ideal S5000x128 φ₁) (b : FVec Ideal S128x64 φ₂) (p : Fin 5000) (q : Fin 64) :
    matmul dot_S5000x128_S128x64_S5000x64_1_0_0_1_n_n none a b (constant S5000x64 .f32 0x00000000#32) (ix2 p q)
      = ∑ k : Fin 128, a (ix2 p k) * b (ix2 k q) :=
  Cert.LibMatmul2.matmul_zero_apply dot_S5000x128_S128x64_S5000x64_1_0_0_1_n_n
    (Cert.LibDotAxes.contr_rank _ rfl) (Cert.LibDotAxes.contr_size _ rfl _)
    (Cert.LibDotAxes.lhs_row _ rfl rfl) (fun i k => Cert.LibDotAxes.lhs_col _ rfl i k _)
    (fun i k => Cert.LibDotAxes.rhs_row _ rfl i k _) (Cert.LibDotAxes.rhs_col _ rfl rfl rfl rfl) a b p q

/-- What the body stores at row p, feature q of its block: the aggregated row through the left weights, plus the bias
    at q, plus the previous layer's row through the right weights. At the ideal values the change of float format is
    the identity, the casts to the same shape are the identity, and the one bias row is read at every row. -/
theorem pay1_apply (x0 x1 : Vec Ideal S5000x128 .f32) (x2 x4 : Vec Ideal S128x64 .f32) (x3 : Vec Ideal S1x64 .f32)
    (p : Fin 5000) (q : Fin 64) :
    Gen.k1_pay1 (F := Ideal) x0 x1 x2 x4 x3 (ix2 p q)
      = (∑ k : Fin 128, x0 (ix2 p k) * x2 (ix2 k q)) + x3 (ix2 0 q) + ∑ k : Fin 128, x1 (ix2 p k) * x4 (ix2 k q) := by
  unfold Gen.k1_pay1
  rw [addf_apply, addf_apply, dot_apply, dot_apply]
  rw [shapeCast_self, shapeCast_self, shapeCast_self, broadcastTo_1b_ab_apply]
  simp only [truncf_apply]

/-! ## From the blocks to the array -/

variable (V : (c : Dev nD) → (b : Ref sig .tc) → Buf (Elt Ideal) ((c : Thread nD τ).loc b))

/-- The layer at width 64, as one function of the five arrays the region finds. -/
abbrev layer (c : Dev nD) : S100000x64.Idx → EReal := fun i =>
  Cert.Sage.layerAt (V c main_v39 : S100000x128.Idx → EReal) (V c main_v26 : S100000x128.Idx → EReal)
    (V c main_arg5 : S128x64.Idx → EReal) (fun j => (V c main_v40 : S1x64.Idx → EReal) (ix2 0 j))
    (V c main_arg7 : S128x64.Idx → EReal) (i 0) (i 1)

theorem zero_offsets : (![0, 0] : Fin 2 → Nat) = fun _ => 0 :=
  funext fun a => match a with | ⟨0, _⟩ => rfl | ⟨1, _⟩ => rfl

/-- The index maps over the grid: the two row-blocked inputs and the output sit at block (t, 0); the two weight
    matrices and the bias row at block (0, 0). -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Block t of the aggregated features is rows 5000 t … 5000 t + 4999 of the array. -/
theorem mean_block (c : Dev nD) (t : Fin cfg1.N) (p : Fin 5000) (k : Fin 128) (n : Fin 100000)
    (hn : n.val = t.val * 5000 + p.val) :
    (Gen.iblk1 (F := Ideal) V c 0 t : Vec Ideal S5000x128 .f32) (ix2 p k) = (V c main_v39 : S100000x128.Idx → EReal) (ix2 n k) := by
  obtain ⟨e0, e1, -⟩ := index_maps t
  show (V c main_v39 : S100000x128.Idx → EReal) (((cfg1.win 0).blk t).view.emb (ix2 p k)) = _
  refine congrArg _ (funext fun a => Fin.ext ?_)
  match a with
  | ⟨0, _⟩ => show win1_0.index t (0 : Fin 2) * 5000 + 1 * p.val = n.val; omega
  | ⟨1, _⟩ => show win1_0.index t (1 : Fin 2) * 128 + 1 * k.val = k.val; omega

/-- Block t of the first layer's output is the same rows of its array. -/
theorem node_block (c : Dev nD) (t : Fin cfg1.N) (p : Fin 5000) (k : Fin 128) (n : Fin 100000)
    (hn : n.val = t.val * 5000 + p.val) :
    (Gen.iblk1 (F := Ideal) V c 1 t : Vec Ideal S5000x128 .f32) (ix2 p k) = (V c main_v26 : S100000x128.Idx → EReal) (ix2 n k) := by
  obtain ⟨-, -, e0, e1, -⟩ := index_maps t
  show (V c main_v26 : S100000x128.Idx → EReal) (((cfg1.win 1).blk t).view.emb (ix2 p k)) = _
  refine congrArg _ (funext fun a => Fin.ext ?_)
  match a with
  | ⟨0, _⟩ => show win1_1.index t (0 : Fin 2) * 5000 + 1 * p.val = n.val; omega
  | ⟨1, _⟩ => show win1_1.index t (1 : Fin 2) * 128 + 1 * k.val = k.val; omega

/-- The left weights' one block is the whole matrix, at every point. -/
theorem left_block (c : Dev nD) (t : Fin cfg1.N) (k : Fin 128) (q : Fin 64) :
    (Gen.iblk1 (F := Ideal) V c 2 t : Vec Ideal S128x64 .f32) (ix2 k q) = (V c main_arg5 : S128x64.Idx → EReal) (ix2 k q) := by
  obtain ⟨-, -, -, -, e0, e1, -⟩ := index_maps t
  show (V c main_arg5 : S128x64.Idx → EReal) (((cfg1.win 2).blk t).view.emb (ix2 k q)) = _
  refine congrArg _ (funext fun a => Fin.ext ?_)
  match a with
  | ⟨0, _⟩ => show win1_2.index t (0 : Fin 2) * 128 + 1 * k.val = k.val; omega
  | ⟨1, _⟩ => show win1_2.index t (1 : Fin 2) * 64 + 1 * q.val = q.val; omega

/-- The bias row's one block is the whole row, at every point. -/
theorem bias_block (c : Dev nD) (t : Fin cfg1.N) (q : Fin 64) :
    (Gen.iblk1 (F := Ideal) V c 3 t : Vec Ideal S1x64 .f32) (ix2 0 q) = (V c main_v40 : S1x64.Idx → EReal) (ix2 0 q) := by
  obtain ⟨-, -, -, -, -, -, e0, e1, -⟩ := index_maps t
  show (V c main_v40 : S1x64.Idx → EReal) (((cfg1.win 3).blk t).view.emb (ix2 0 q)) = _
  refine congrArg _ (funext fun a => Fin.ext ?_)
  match a with
  | ⟨0, _⟩ => show win1_3.index t (0 : Fin 2) * 1 + 1 * 0 = 0; omega
  | ⟨1, _⟩ => show win1_3.index t (1 : Fin 2) * 64 + 1 * q.val = q.val; omega

/-- The right weights' one block is the whole matrix, at every point. -/
theorem right_block (c : Dev nD) (t : Fin cfg1.N) (k : Fin 128) (q : Fin 64) :
    (Gen.iblk1 (F := Ideal) V c 4 t : Vec Ideal S128x64 .f32) (ix2 k q) = (V c main_arg7 : S128x64.Idx → EReal) (ix2 k q) := by
  obtain ⟨-, -, -, -, -, -, -, -, e0, e1, -⟩ := index_maps t
  show (V c main_arg7 : S128x64.Idx → EReal) (((cfg1.win 4).blk t).view.emb (ix2 k q)) = _
  refine congrArg _ (funext fun a => Fin.ext ?_)
  match a with
  | ⟨0, _⟩ => show win1_4.index t (0 : Fin 2) * 128 + 1 * k.val = k.val; omega
  | ⟨1, _⟩ => show win1_4.index t (1 : Fin 2) * 64 + 1 * q.val = q.val; omega

/-- What point t writes back is block t of the layer: at row p, feature q of the block the body's result is the layer
    at node 5000 t + p, feature q, every input block read at the rows and columns the output's block names. -/
theorem flushed_eq (c : Dev nD) (t : Fin cfg1.N) :
    (Gen.dat1 (F := Ideal) V c).flushed 5 t = ((cfg1.win 5).blk t).view.read (Elt Ideal) (layer V c) := by
  show (cfg1.win 5).cut (grid1.coords t) ((Gen.dat1 (F := Ideal) V c).after 5 t) = _
  rw [Gen.after1_5]
  unfold Gen.out1_5
  rw [View.canon_unit_zero zero_offsets]
  simp only [View.ld_unit_zero (S := S5000x128) zero_offsets, View.ld_unit_zero (S := S128x64) zero_offsets,
    View.ld_unit_zero (S := S1x64) zero_offsets]
  funext j
  obtain ⟨p, q, rfl⟩ : ∃ (p : Fin 5000) (q : Fin 64), j = ix2 p q := ⟨j 0, j 1, eq_ix2 j⟩
  obtain ⟨-, -, -, -, -, -, -, -, -, -, e0, e1⟩ := index_maps t
  have hn : ((((cfg1.win 5).blk t).view.emb (ix2 p q)) 0).val = t.val * 5000 + p.val := by
    show win1_5.index t (0 : Fin 2) * 5000 + 1 * p.val = _; omega
  have hq : (((cfg1.win 5).blk t).view.emb (ix2 p q)) 1 = q := Fin.ext (by
    show win1_5.index t (1 : Fin 2) * 64 + 1 * q.val = _; omega)
  show Gen.k1_pay1 (F := Ideal) (Gen.iblk1 V c 0 t) (Gen.iblk1 V c 1 t) (Gen.iblk1 V c 2 t) (Gen.iblk1 V c 4 t) (Gen.iblk1 V c 3 t) (ix2 p q)
    = Cert.Sage.layerAt (V c main_v39 : S100000x128.Idx → EReal) (V c main_v26 : S100000x128.Idx → EReal)
      (V c main_arg5 : S128x64.Idx → EReal) (fun j => (V c main_v40 : S1x64.Idx → EReal) (ix2 0 j))
      (V c main_arg7 : S128x64.Idx → EReal) ((((cfg1.win 5).blk t).view.emb (ix2 p q)) 0) ((((cfg1.win 5).blk t).view.emb (ix2 p q)) 1)
  rw [pay1_apply, hq]
  unfold Cert.Sage.layerAt
  rw [bias_block V c t q]
  refine congrArg₂ (· + ·) (congrArg (· + _) ?_) ?_
  · exact Finset.sum_congr rfl fun k _ => congrArg₂ (· * ·) (mean_block V c t p k _ hn) (left_block V c t k q)
  · exact Finset.sum_congr rfl fun k _ => congrArg₂ (· * ·) (node_block V c t p k _ hn) (right_block V c t k q)

/-- An index of the output array lies in point t's block exactly when each coordinate lies in the block's range. -/
theorem mem_block (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v41).slice (win1_5.rect t)).set ↔ _
  rw [View.set_slice_whole, Rect.mem_set_unit]
  exact Iff.rfl

/-- The twenty row blocks tile the array: node n lies in the block of point n / 5000, which writes back. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := Gen.N_1
  obtain ⟨t, ht⟩ : ∃ t : Fin cfg1.N, t.val = (i 0).val / 5000 := ⟨⟨(i 0).val / 5000, by rw [hN]; omega⟩, rfl⟩
  obtain ⟨-, -, -, -, -, -, -, -, -, -, e0, e1⟩ := index_maps t
  refine ⟨t, Gen.flush1_5 t, ?_⟩
  rw [mem_block]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 64 ≤ (i 1).val ∧ (i 1).val < win1_5.index t (1 : Fin 2) * 64 + 64
    omega

end Out64

/-- After the region the output array holds the layer at every node and feature, whatever the region found. -/
theorem final1 (V : (c : Dev nD) → (b : Ref sig .tc) → Buf (Elt Ideal) ((c : Thread nD τ).loc b)) (c : Dev nD) :
    (Gen.dat1 (F := Ideal) V c).arrAt 5 cfg1.N
      = fun i => Cert.Sage.layerAt (V c main_v39) (V c main_v26) (V c main_arg5) (fun j => V c main_v40 (ix2 0 j))
          (V c main_arg7) (i 0) (i 1) :=
  (Gen.dat1 (F := Ideal) V c).arrAt_eq_of_cover 5 (Out64.layer V c) (fun t _ => Out64.flushed_eq V c t) Out64.cover

end Cert.KernelIdeal.Blocks

end
-- ==== Proof.KernelValue.lean ====
/-
  The kernel program's result array, after the run, is its function of the launch arrays.

  The last boundary's contents at the result array are what the second region's write-backs fold to: the second layer
  of the arrays that region finds. Those are the mean of the first region's output (taken by the host operations
  between the regions), that output itself, and launch arrays; the first region's output is the first layer, clamped
  below at zero, of the mean of the node features and launch arrays.
-/
import proofs.«131175_j72232759984911_1_alg».proof.Proof.HostReads
import proofs.«131175_j72232759984911_1_alg».proof.Proof.KernelFn
import proofs.«131175_j72232759984911_1_alg».proof.Proof.Blocks0
import proofs.«131175_j72232759984911_1_alg».proof.Proof.Blocks1

noncomputable section

namespace Cert.KernelIdeal.KernelValue

open Cert.KernelIdeal Cert.KernelIdeal.Gen Cert.KernelIdeal.HostReads Cert.KernelIdeal.KernelFn
open Idealize.ShloMosaic Idealize.ShloMosaic.TcCoe Idealize.SL.Sem Idealize.ShloMosaic.ValueIdx

variable (m : (ℓ : Loc nD τ sig) → Buf (Elt Ideal) ℓ) (ρ : Dev nD → PrngReg)

/-- The first region leaves the hidden features in its output array. -/
theorem hidden_run (c : Dev nD) : W2 m ρ c (Proc.devRef .tc main_v26)
    = hiddenOf (m ((c : Thread nD τ).loc main_arg0)) (m ((c : Thread nD τ).loc main_arg1)) (m ((c : Thread nD τ).loc main_arg2))
        (m ((c : Thread nD τ).loc main_arg3)) (m ((c : Thread nD τ).loc main_arg4)) := by
  rw [W2_hidden, Blocks.final0 (V1 m ρ) c]
  dsimp only [V1]
  rw [W1_mean, W1_arg m ρ c main_arg0 (by simp), W1_arg m ρ c main_arg2 (by simp), W1_bias,
    W1_arg m ρ c main_arg4 (by simp)]
  rfl

/-- The second region leaves the result in its output array. -/
theorem result_run (c : Dev nD) : W4 m ρ c (Proc.devRef .tc main_v41)
    = outOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  rw [W4_result, Blocks.final1 (V3 m ρ) c]
  dsimp only [V3]
  rw [W3_mean, W3_hidden, hidden_run, W3_arg5, W3_bias, W3_arg7]
  rfl

end Cert.KernelIdeal.KernelValue

end
-- ==== Proof.MeanLaw.lean ====
/-
  The mean of a neighbourhood sum, taken two ways, is one function.

  The kernel's host side multiplies the neighbourhood sum by the reciprocal of the clamped neighbour count; a
  reference divides the sum by the clamped count. The count is clamped below by one, so it is never zero, and on the
  extended reals a · (1 / c) = a / c for every a and every c ≠ 0 (both are a · c⁻¹): no finiteness of the features is
  needed, and the sum itself is never opened.
-/
import proofs.«131175_j72232759984911_1_alg».proof.Proof.HostReads
import proofs.«131175_j72232759984911_1_alg».proof.Proof.Spec
import Idealize.ShloMosaic.Lib.Pipeline.Value
import Idealize.ShloMosaic.Lib.IdealHost

noncomputable section

namespace Cert.KernelIdeal.MeanLaw

open Cert.KernelIdeal Cert.KernelIdeal.Gen Cert.KernelIdeal.HostReads
open Idealize.ShloMosaic Idealize.ShloMosaic.ValueIdx

/-- A per-node vector broadcast along the features reads, at (n, j), the vector at n. -/
theorem rows_apply {α : Type} (v : S100000.Idx → α) (i : S100000x128.Idx) :
    broadcastInDim S100000x128 ![0, 1] bcast_S100000x1_S100000x128_0_1 (broadcastInDim S100000x1 ![0] bcast_S100000_S100000x1_0 v) i
      = v (@ix1 100000 (i 0)) :=
  (broadcastInDim_apply _ bcast_S100000x1_S100000x128_0_1 _ i (@ix2 100000 1 (i 0) ⟨0, Nat.one_pos⟩)
      (fun a => match a with
        | ⟨0, _⟩ => by show (i 0).val = if (100000 : Nat) = 1 then 0 else (i 0).val; rw [if_neg (by decide)]
        | ⟨1, _⟩ => by show 0 = if (1 : Nat) = 1 then 0 else (i 1).val; rw [if_pos rfl])).trans
    (broadcastInDim_apply _ bcast_S100000_S100000x1_0 v _ (@ix1 100000 (i 0))
      (fun a => match a with
        | ⟨0, _⟩ => by show (i 0).val = if (100000 : Nat) = 1 then 0 else (i 0).val; rw [if_neg (by decide)]))

/-- The law on abstract arrays: a sum `A` times the broadcast reciprocal `ones / C` is `A` over the broadcast `C`, when
    `ones` reads one and `C` is nowhere zero. -/
theorem mul_recip_rows (A : FVec Ideal S100000x128 .f32) (ones C : FVec Ideal S100000 .f32)
    (h1 : ∀ n, (ones n : EReal) = 1) (hC : ∀ n, (C n : EReal) ≠ 0) :
    mulf A (broadcastInDim S100000x128 ![0, 1] bcast_S100000x1_S100000x128_0_1
        (broadcastInDim S100000x1 ![0] bcast_S100000_S100000x1_0 (Host.divf ones C)))
      = Host.divf A (broadcastInDim S100000x128 ![0, 1] bcast_S100000x1_S100000x128_0_1
        (broadcastInDim S100000x1 ![0] bcast_S100000_S100000x1_0 C)) := by
  funext i
  show (A i : EReal) * _ = Ideal.div (A i) _
  rw [rows_apply, rows_apply]
  show (A i : EReal) * Ideal.div (ones _) (C _) = _
  rw [h1]
  exact Cert.Sage.mul_recip _ _ (hC _)

/-- The broadcast of the literal one reads one at every node. -/
theorem ones_apply (n : S100000.Idx) :
    (broadcastInDim S100000 ![] bcast_S_S100000 (constant (F := Ideal) S_ .f32 0x3F800000#32) : FVec Ideal S100000 .f32) n = (1 : EReal) :=
  (broadcastInDim_apply _ bcast_S_S100000 _ n (fun a => a.elim0) (fun a => a.elim0)).trans Ideal.ofBits_one_f32

/-- A vector clamped below by a vector of ones is nowhere zero. -/
theorem max_ones_ne_zero (X ones : FVec Ideal S100000 .f32) (h1 : ∀ n, (ones n : EReal) = 1) (n : S100000.Idx) :
    (maximumf X ones n : EReal) ≠ 0 := by
  show max (X n : EReal) (ones n) ≠ 0
  rw [h1]
  exact Cert.Sage.max_one_ne_zero _

/-- The clamped count is never zero. -/
theorem clampedCount_ne_zero (dst : (⟨S1600000, .i32⟩ : BufTy).Contents (Elt Ideal)) (n : S100000.Idx) :
    (clampedCount (F := Ideal) dst n : EReal) ≠ 0 := by
  unfold clampedCount
  exact max_ones_ne_zero _ _ ones_apply n

/-- The sum times the reciprocal of the clamped count is the sum divided by the clamped count. -/
theorem scaledSum_inv (feat : (⟨S100000x128, .f32⟩ : BufTy).Contents (Elt Ideal))
    (src dst : (⟨S1600000, .i32⟩ : BufTy).Contents (Elt Ideal)) :
    scaledSum (F := Ideal) feat src dst (invCount dst)
      = Host.divf (neighbourSum feat src dst)
          (broadcastInDim S100000x128 ![0, 1] bcast_S100000x1_S100000x128_0_1
            (broadcastInDim S100000x1 ![0] bcast_S100000_S100000x1_0 (clampedCount dst))) := by
  unfold scaledSum invCount
  exact mul_recip_rows _ _ _ ones_apply (clampedCount_ne_zero dst)

end Cert.KernelIdeal.MeanLaw

end
-- ==== Proof.RefLayers.lean ====
/-
  The reference program's two GraphSAGE layers, each read at one index over the extended reals.

  A layer's element at node n, output feature j is
      Σₖ mean(n,k)·Wl(k,j)  +  b(j)  +  Σₖ x(n,k)·Wr(k,j);
  the first layer is followed by a maximum against zero. Each contraction is a sum over the 128 input features
  whose left factor is read at (n, k) and whose right factor is read at (k, j); the bias, broadcast twice, is read
  at j alone. The mean of either layer is a quotient of a scatter-add of gathered rows by a broadcast count.
-/
import proofs.«131175_j72232759984911_1_alg».proof.Proof.Gen.ReferenceIdeal.Read
import proofs.«131175_j72232759984911_1_alg».proof.Proof.Spec
import Idealize.ShloMosaic.PureOps.Ideal
import Idealize.ShloMosaic.PureOps.Ideal.Laws
import Idealize.ShloMosaic.Lib.ValueIdx

noncomputable section

open scoped BigOperators

namespace Cert.ReferenceIdeal.Layers

open Cert.ReferenceIdeal Cert.ReferenceIdeal.Gen Idealize.ShloMosaic Idealize.ShloMosaic.ValueIdx Idealize.ShloMosaic.StableHlo

/-! ## The index maps of the first layer, by coordinates -/

/-- The left factor of a first-layer contraction is read at (node, k). -/
theorem lidx23 (i : S100000x128.Idx) (k : Fin 128) : Read.lidx_main_v23 i k = @ix2 100000 128 (i 0) k :=
  funext fun a => Fin.ext (by match a with | ⟨0, _⟩ => rfl | ⟨1, _⟩ => rfl)

/-- The right factor of a first-layer contraction is read at (k, feature). -/
theorem ridx23 (i : S100000x128.Idx) (k : Fin 128) : Read.ridx_main_v23 i k = @ix2 128 128 k (i 1) :=
  funext fun a => Fin.ext (by match a with | ⟨0, _⟩ => rfl | ⟨1, _⟩ => rfl)

theorem lidx27 (i : S100000x128.Idx) (k : Fin 128) : Read.lidx_main_v27 i k = @ix2 100000 128 (i 0) k :=
  funext fun a => Fin.ext (by match a with | ⟨0, _⟩ => rfl | ⟨1, _⟩ => rfl)

theorem ridx27 (i : S100000x128.Idx) (k : Fin 128) : Read.ridx_main_v27 i k = @ix2 128 128 k (i 1) :=
  funext fun a => Fin.ext (by match a with | ⟨0, _⟩ => rfl | ⟨1, _⟩ => rfl)

/-- The bias, broadcast along a unit axis and then along the nodes, is read at the feature. -/
theorem bidx25 (i : S100000x128.Idx) : Read.idx_main_v24 (Read.idx_main_v25 i) = @ix1 128 (i 1) :=
  funext fun a => Fin.ext (by match a with | ⟨0, _⟩ => rfl)

/-! ## The index maps of the second layer, by coordinates -/

theorem lidx49 (i : S100000x64.Idx) (k : Fin 128) : Read.lidx_main_v49 i k = @ix2 100000 128 (i 0) k :=
  funext fun a => Fin.ext (by match a with | ⟨0, _⟩ => rfl | ⟨1, _⟩ => rfl)

theorem ridx49 (i : S100000x64.Idx) (k : Fin 128) : Read.ridx_main_v49 i k = @ix2 128 64 k (i 1) :=
  funext fun a => Fin.ext (by match a with | ⟨0, _⟩ => rfl | ⟨1, _⟩ => rfl)

theorem lidx53 (i : S100000x64.Idx) (k : Fin 128) : Read.lidx_main_v53 i k = @ix2 100000 128 (i 0) k :=
  funext fun a => Fin.ext (by match a with | ⟨0, _⟩ => rfl | ⟨1, _⟩ => rfl)

theorem ridx53 (i : S100000x64.Idx) (k : Fin 128) : Read.ridx_main_v53 i k = @ix2 128 64 k (i 1) :=
  funext fun a => Fin.ext (by match a with | ⟨0, _⟩ => rfl | ⟨1, _⟩ => rfl)

theorem bidx51 (i : S100000x64.Idx) : Read.idx_main_v50 (Read.idx_main_v51 i) = @ix1 64 (i 1) :=
  funext fun a => Fin.ext (by match a with | ⟨0, _⟩ => rfl)

/-! ## The two layers at an index -/

/-- The hidden layer: the first layer's element, clamped below by zero. -/
theorem hidden_apply (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (i : S100000x128.Idx) :
    Read.val_main_v29 (F := Ideal) x0 x1 x2 x3 x4 i
      = (max (Cert.Sage.layerAt (Read.val_main_v22 (F := Ideal) x0 x1) x0 x2 (fun j => x3 (ix1 j)) x4 (i 0) (i 1)) 0 : EReal) := by
  rw [Read.val_main_v29_apply, Read.val_main_v28_apply, Read.val_main_v26_apply, Read.val_main_v23_apply,
    Read.val_main_v27_apply, Read.val_main_v25_apply, Read.val_main_v24_apply, Read.val_main_call0_v0_apply,
    Read.val_main_call0_cst_apply]
  simp only [lidx23, ridx23, lidx27, ridx27, bidx25, Ideal.addf_def, Ideal.maximumf_def, Ideal.ofBits_def,
    Ideal.ofBits_zero_f32]
  unfold Cert.Sage.layerAt
  rfl

/-- The output layer: the second layer's element, over the hidden features and their mean. -/
theorem out_apply (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128x64, .f32⟩ : BufTy).Contents (Elt Ideal))
    (x6 : (⟨S64, .f32⟩ : BufTy).Contents (Elt Ideal)) (x7 : (⟨S128x64, .f32⟩ : BufTy).Contents (Elt Ideal)) (i : S100000x64.Idx) :
    Read.val_main_v54 (F := Ideal) x0 x1 x2 x3 x4 x5 x6 x7 i
      = (Cert.Sage.layerAt (Read.val_main_v48 (F := Ideal) x0 x1 x2 x3 x4) (Read.val_main_v29 (F := Ideal) x0 x1 x2 x3 x4) x5
          (fun j => x6 (ix1 j)) x7 (i 0) (i 1) : EReal) := by
  rw [Read.val_main_v54_apply, Read.val_main_v52_apply, Read.val_main_v49_apply, Read.val_main_v53_apply,
    Read.val_main_v51_apply, Read.val_main_v50_apply]
  simp only [lidx49, ridx49, lidx53, ridx53, bidx51, Ideal.addf_def]
  unfold Cert.Sage.layerAt
  rfl

/-! ## The two means, as quotients of a scatter-add of gathered rows by the broadcast count -/

/-- The first layer's mean: node features gathered along the edges' sources, added into the edges' targets, over the count. -/
theorem mean0_eq (x0 : (⟨S100000x128, .f32⟩ : BufTy).Contents (Elt Ideal)) (x1 : (⟨S2x1600000, .i32⟩ : BufTy).Contents (Elt Ideal)) :
    Read.val_main_v22 (F := Ideal) x0 x1
      = Host.divf (F := Ideal) (φ := .f32) (Host.scatterAdd (F := Ideal) (φ := .f32) scatter_S100000x128_S1600000x1_S1600000x128_1_0_0_1 (Read.val_main_v11 (F := Ideal))
          (Read.val_main_v12 (F := Ideal) x1)
          (Host.gather gather_S100000x128_S1600000x1_S1600000x128_1_0_n_n_0_1_1128 x0 (Read.val_main_v9 (F := Ideal) x1)))
          (Read.val_main_v21 (F := Ideal) x1) := by
  unfold Read.val_main_v22 Read.val_main_v13 Read.val_main_v10
  rfl

/-- The second layer's mean: the same, over the hidden features. -/
theorem mean1_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    Read.val_main_v48 (F := Ideal) x0 x1 x2 x3 x4
      = Host.divf (F := Ideal) (φ := .f32) (Host.scatterAdd (F := Ideal) (φ := .f32) scatter_S100000x128_S1600000x1_S1600000x128_1_0_0_1 (Read.val_main_v37 (F := Ideal))
          (Read.val_main_v38 (F := Ideal) x1)
          (Host.gather gather_S100000x128_S1600000x1_S1600000x128_1_0_n_n_0_1_1128 (Read.val_main_v29 (F := Ideal) x0 x1 x2 x3 x4)
            (Read.val_main_v35 (F := Ideal) x1)))
          (Read.val_main_v47 (F := Ideal) x1) := by
  unfold Read.val_main_v48 Read.val_main_v39 Read.val_main_v36
  rfl

end Cert.ReferenceIdeal.Layers

end
-- ==== Proof.Bridge.lean ====
/-
  The kernel program's function of the launch arrays is the reference's.

  Both programs compute the same two layers; they differ only in how the mean is taken. The kernel's host side
  multiplies the neighbourhood sum by the reciprocal of the clamped count, the reference divides by the clamped
  count, and the two agree on the extended reals because the clamped count is never zero. The neighbourhood sum
  and the count are the same host operations of the same arrays in both programs and are carried unopened. With the
  means equal the hidden features are equal, then so are the second layer's means, and then the results.
-/
import proofs.«131175_j72232759984911_1_alg».proof.Proof.KernelFn
import proofs.«131175_j72232759984911_1_alg».proof.Proof.MeanLaw
import proofs.«131175_j72232759984911_1_alg».proof.Proof.RefLayers
import Idealize.ShloMosaic.Lib.Pipeline.Value

noncomputable section

namespace Cert.Bridge

open Cert.KernelIdeal.HostReads Cert.KernelIdeal.MeanLaw Cert.KernelIdeal.KernelFn
open Idealize.ShloMosaic Idealize.ShloMosaic.ValueIdx

/-- A length-128 vector reshaped to one row reads, at (0, j), the vector at j. -/
theorem row128_apply (b : (⟨Cert.KernelIdeal.S128, .f32⟩ : BufTy).Contents (Elt Ideal)) (j : Fin 128) :
    (shapeCast Cert.KernelIdeal.S1x128 b Cert.KernelIdeal.Gen.shapeCasts_S128_S1x128 : Cert.KernelIdeal.S1x128.Idx → EReal) (ix2 0 j)
      = b (ix1 j) :=
  shapeCast_apply b _ (ix2 0 j) (ix1 j) (by
    rewrite [Shape.rowMajor_val_two, Shape.rowMajor_val_one]
    show j.val = 0 * 128 + j.val
    omega)

/-- A length-64 vector reshaped to one row reads, at (0, j), the vector at j. -/
theorem row64_apply (b : (⟨Cert.KernelIdeal.S64, .f32⟩ : BufTy).Contents (Elt Ideal)) (j : Fin 64) :
    (shapeCast Cert.KernelIdeal.S1x64 b Cert.KernelIdeal.Gen.shapeCasts_S64_S1x64 : Cert.KernelIdeal.S1x64.Idx → EReal) (ix2 0 j)
      = b (ix1 j) :=
  shapeCast_apply b _ (ix2 0 j) (ix1 j) (by
    rewrite [Shape.rowMajor_val_two, Shape.rowMajor_val_one]
    show j.val = 0 * 64 + j.val
    omega)

/-- The first layer's mean: the kernel's product with the reciprocal count is the reference's quotient by the count,
    of one and the same neighbourhood sum and count. -/
theorem mean0_eq (x0 : (⟨Cert.KernelIdeal.S100000x128, .f32⟩ : BufTy).Contents (Elt Ideal))
    (x1 : (⟨Cert.KernelIdeal.S2x1600000, .i32⟩ : BufTy).Contents (Elt Ideal)) :
    meanOf x0 x1 = Cert.ReferenceIdeal.Read.val_main_v22 (F := Ideal) x0 x1 := by
  unfold meanOf
  rw [scaledSum_inv, Cert.ReferenceIdeal.Layers.mean0_eq]
  rfl

/-- The hidden features: with the first layer's means equal, the two clamped layers are one function. -/
theorem hidden_eq (x0 : (⟨Cert.KernelIdeal.S100000x128, .f32⟩ : BufTy).Contents (Elt Ideal))
    (x1 : (⟨Cert.KernelIdeal.S2x1600000, .i32⟩ : BufTy).Contents (Elt Ideal))
    (x2 : (⟨Cert.KernelIdeal.S128x128, .f32⟩ : BufTy).Contents (Elt Ideal))
    (x3 : (⟨Cert.KernelIdeal.S128, .f32⟩ : BufTy).Contents (Elt Ideal))
    (x4 : (⟨Cert.KernelIdeal.S128x128, .f32⟩ : BufTy).Contents (Elt Ideal)) :
    hiddenOf x0 x1 x2 x3 x4 = Cert.ReferenceIdeal.Read.val_main_v29 (F := Ideal) x0 x1 x2 x3 x4 := by
  funext i
  rw [Cert.ReferenceIdeal.Layers.hidden_apply]
  unfold hiddenOf
  rw [mean0_eq]
  simp only [row128_apply]

/-- The second layer's mean, over the common hidden features. -/
theorem mean1_eq (x0 : (⟨Cert.KernelIdeal.S100000x128, .f32⟩ : BufTy).Contents (Elt Ideal))
    (x1 : (⟨Cert.KernelIdeal.S2x1600000, .i32⟩ : BufTy).Contents (Elt Ideal))
    (x2 : (⟨Cert.KernelIdeal.S128x128, .f32⟩ : BufTy).Contents (Elt Ideal))
    (x3 : (⟨Cert.KernelIdeal.S128, .f32⟩ : BufTy).Contents (Elt Ideal))
    (x4 : (⟨Cert.KernelIdeal.S128x128, .f32⟩ : BufTy).Contents (Elt Ideal)) :
    meanOf (Cert.ReferenceIdeal.Read.val_main_v29 (F := Ideal) x0 x1 x2 x3 x4) x1
      = Cert.ReferenceIdeal.Read.val_main_v48 (F := Ideal) x0 x1 x2 x3 x4 := by
  unfold meanOf
  rw [scaledSum_inv, Cert.ReferenceIdeal.Layers.mean1_eq]
  rfl

/-- The results: the second layer over equal hidden features and equal means. -/
theorem out_eq (x0 : (⟨Cert.KernelIdeal.S100000x128, .f32⟩ : BufTy).Contents (Elt Ideal))
    (x1 : (⟨Cert.KernelIdeal.S2x1600000, .i32⟩ : BufTy).Contents (Elt Ideal))
    (x2 : (⟨Cert.KernelIdeal.S128x128, .f32⟩ : BufTy).Contents (Elt Ideal))
    (x3 : (⟨Cert.KernelIdeal.S128, .f32⟩ : BufTy).Contents (Elt Ideal))
    (x4 : (⟨Cert.KernelIdeal.S128x128, .f32⟩ : BufTy).Contents (Elt Ideal))
    (x5 : (⟨Cert.KernelIdeal.S128x64, .f32⟩ : BufTy).Contents (Elt Ideal))
    (x6 : (⟨Cert.KernelIdeal.S64, .f32⟩ : BufTy).Contents (Elt Ideal))
    (x7 : (⟨Cert.KernelIdeal.S128x64, .f32⟩ : BufTy).Contents (Elt Ideal)) :
    outOf x0 x1 x2 x3 x4 x5 x6 x7 = Cert.ReferenceIdeal.Read.val_main_v54 (F := Ideal) x0 x1 x2 x3 x4 x5 x6 x7 := by
  funext i
  rw [Cert.ReferenceIdeal.Layers.out_apply]
  unfold outOf
  rw [hidden_eq, mean1_eq]
  simp only [row64_apply]

end Cert.Bridge

end
-- ==== Proof.lean ====
/-
  Two GraphSAGE layers with mean aggregation: a kernel program against its jnp reference, over the extended reals.

  Both programs aggregate each node's incoming neighbours by a gather along the edges' sources and a scatter-add at
  the edges' destinations, take the mean over the neighbour count clamped below by one, and apply
      mean · W_l + b + x · W_r
  twice, with a maximum against zero in between. The kernel program computes the dense layer in row blocks of 5000
  nodes (twenty blocks tile the 100000 rows; at the ideal values the change of float format inside the block is the
  identity and a block's matrix product into the zero accumulator is the plain sum over the 128 features), and it takes
  the mean as the neighbourhood sum TIMES the reciprocal of the clamped count, where the reference DIVIDES by the
  clamped count. The clamped count is at least one, hence not zero, and on the extended reals a · (1 / c) = a / c for
  every a once c ≠ 0: the two means are one function, whatever the features hold, so the precondition is never opened.
  The neighbourhood sum and the count are the same host operations of the same arrays in both programs and are carried
  as they stand. Equal means give equal hidden features, these give equal second means, and these equal results.

  The frames: each kernel program's is the launch over its host stretches and its two regions; the reference's is its
  run with the result dropped. The idealization rewrote nothing, so nothing is owed for it.
-/
import proofs.«131175_j72232759984911_1_alg».proof.Defs
import proofs.«131175_j72232759984911_1_alg».proof.Proof.Gen.Kernel
import proofs.«131175_j72232759984911_1_alg».proof.Proof.Gen.Kernel.Skeleton
import proofs.«131175_j72232759984911_1_alg».proof.Proof.Gen.Kernel.Launch
import proofs.«131175_j72232759984911_1_alg».proof.Proof.Gen.Kernel.Points
import proofs.«131175_j72232759984911_1_alg».proof.Proof.Gen.Kernel.Frame
import proofs.«131175_j72232759984911_1_alg».proof.Proof.Gen.KernelIdeal
import proofs.«131175_j72232759984911_1_alg».proof.Proof.Gen.KernelIdeal.Skeleton
import proofs.«131175_j72232759984911_1_alg».proof.Proof.Gen.KernelIdeal.Launch
import proofs.«131175_j72232759984911_1_alg».proof.Proof.Gen.KernelIdeal.Points
import proofs.«131175_j72232759984911_1_alg».proof.Proof.Gen.KernelIdeal.Frame
import proofs.«131175_j72232759984911_1_alg».proof.Proof.Gen.ReferenceIdeal
import proofs.«131175_j72232759984911_1_alg».proof.Proof.Gen.ReferenceIdeal.Run
import proofs.«131175_j72232759984911_1_alg».proof.Proof.Gen.ReferenceIdeal.Read
import proofs.«131175_j72232759984911_1_alg».proof.Proof.Gen.Pre_finite_inputs
import proofs.«131175_j72232759984911_1_alg».proof.Proof.RunNamed
import proofs.«131175_j72232759984911_1_alg».proof.Proof.KernelValue
import proofs.«131175_j72232759984911_1_alg».proof.Proof.Bridge
import Idealize.ShloMosaic.Adequacy
import Idealize.ShloMosaic.Init

noncomputable section

namespace Cert.Proof

open Idealize.ShloMosaic Idealize.SL.Sem

/-- From memories agreeing on the arguments both idealized programs run to the same result: the kernel program's result
    array is its function of the launch arrays, the reference's run ends at its composed term of them, and the two are
    one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KernelFn.outOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KernelValue.result_run m ρ c), (h c).2⟩)
      (Cert.KernelIdeal.RunNamed.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v54_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact (Cert.Bridge.out_eq _ _ _ _ _ _ _ _).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
